-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S1000x16 : Shape := ⟨2, ![1000, 16]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S4096x1000 .f32) (main_arg1 : FVec F S1000x16 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S4096x1000 : Shape := ⟨2, ![4096, 1000]⟩
abbrev S1000x16 : Shape := ⟨2, ![1000, 16]⟩
abbrev S4096x16 : Shape := ⟨2, ![4096, 16]⟩
abbrev S512x1000 : Shape := ⟨2, ![512, 1000]⟩
abbrev S512x16 : Shape := ⟨2, ![512, 16]⟩

abbrev nBuf : Space → Nat
  | .hbm => 3
  | .vmem => 5
  | .smem => 0
  | _ => 0

abbrev bufTy : (tb : Table) → Fin (tcTables nBuf tb) → BufTy
  | .hbm, ⟨0, _⟩ => ⟨S4096x1000, .f32⟩
  | .hbm, ⟨1, _⟩ => ⟨S1000x16, .f32⟩
  | .hbm, ⟨2, _⟩ => ⟨S4096x16, .f32⟩
  | .local _ .vmem, ⟨0, _⟩ => ⟨S512x1000, .f32⟩
  | .local _ .vmem, ⟨1, _⟩ => ⟨S512x1000, .f32⟩
  | .local _ .vmem, ⟨2, _⟩ => ⟨S1000x16, .f32⟩
  | .local _ .vmem, ⟨3, _⟩ => ⟨S512x16, .f32⟩
  | .local _ .vmem, ⟨4, _⟩ => ⟨S512x16, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1000_S512x1000_0_0 : ∀ a, (![0, 0] : Fin 2 → Nat) a + S512x1000.size a ≤ S512x1000.size a
  h_S512x1000 : 0 < S512x1000.numel
  inb_S1000x16_S1000x16_0_0 : ∀ a, (![0, 0] : Fin 2 → Nat) a + S1000x16.size a ≤ S1000x16.size a
  h_S1000x16 : 0 < S1000x16.numel
  inb_S512x16_S512x16_0_0 : ∀ a, (![0, 0] : Fin 2 → Nat) a + S512x16.size a ≤ S512x16.size a
  h_S512x16 : 0 < S512x16.numel
  dot_S512x1000_S1000x16_S512x16_1_0_0_1_n_n_wf : DotDims.WF S512x1000 S1000x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x16.size a ≤ S1000x16.size a
  hwx0_1 : ∀ i : grid0.Coords, EltTy.bits .f32 = 32 ∨ (Rect.block (s := S1000x16) S1000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)

variable [Facts₀]

def dot_S512x1000_S1000x16_S512x16_1_0_0_1_n_n : DotDims S512x1000 S1000x16 S512x16 where
  lhsContracting := [1]
  rhsContracting := [0]
  lhsNonContracting := [0]
  rhsNonContracting := [1]
  lhsBatch := []
  rhsBatch := []
  wf := dot_S512x1000_S1000x16_S512x16_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1000 : Shape := ⟨2, ![4096, 1000]⟩
abbrev S1000x16 : Shape := ⟨2, ![1000, 16]⟩
abbrev S1000 : Shape := ⟨1, ![1000]⟩
abbrev S1x1000 : Shape := ⟨2, ![1, 1000]⟩
abbrev S_ : Shape := ⟨0, ![]⟩
abbrev S4096x1000x1 : Shape := ⟨3, ![4096, 1000, 1]⟩
abbrev S1 : Shape := ⟨1, ![1]⟩
abbrev S1x1x1 : Shape := ⟨3, ![1, 1, 1]⟩
abbrev S4096x1000x16 : Shape := ⟨3, ![4096, 1000, 16]⟩
abbrev S4096x16 : Shape := ⟨2, ![4096, 16]⟩

abbrev nBuf : Space → Nat
  | .hbm => 37
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S1000x16, .f32⟩
  | .hbm, ⟨2, _⟩ => ⟨S4096x1000, .f32⟩
  | .hbm, ⟨3, _⟩ => ⟨S4096x1000, .f32⟩
  | .hbm, ⟨4, _⟩ => ⟨S4096x1000, .i32⟩
  | .hbm, ⟨5, _⟩ => ⟨S1000, .i32⟩
  | .hbm, ⟨6, _⟩ => ⟨S1x1000, .i32⟩
  | .hbm, ⟨7, _⟩ => ⟨S4096x1000, .i32⟩
  | .hbm, ⟨8, _⟩ => ⟨S4096x1000, .i32⟩
  | .hbm, ⟨9, _⟩ => ⟨S_, .i32⟩
  | .hbm, ⟨10, _⟩ => ⟨S4096x1000, .i32⟩
  | .hbm, ⟨11, _⟩ => ⟨S4096x1000, .i1⟩
  | .hbm, ⟨12, _⟩ => ⟨S_, .i32⟩
  | .hbm, ⟨13, _⟩ => ⟨S4096x1000, .i32⟩
  | .hbm, ⟨14, _⟩ => ⟨S4096x1000, .i32⟩
  | .hbm, ⟨15, _⟩ => ⟨S4096x1000, .i32⟩
  | .hbm, ⟨16, _⟩ => ⟨S4096x1000x1, .i32⟩
  | .hbm, ⟨17, _⟩ => ⟨S1, .i32⟩
  | .hbm, ⟨18, _⟩ => ⟨S_, .i32⟩
  | .hbm, ⟨19, _⟩ => ⟨S4096x1000x1, .i32⟩
  | .hbm, ⟨20, _⟩ => ⟨S4096x1000x1, .i1⟩
  | .hbm, ⟨21, _⟩ => ⟨S1x1x1, .i32⟩
  | .hbm, ⟨22, _⟩ => ⟨S4096x1000x1, .i32⟩
  | .hbm, ⟨23, _⟩ => ⟨S4096x1000x1, .i1⟩
  | .hbm, ⟨24, _⟩ => ⟨S4096x1000x1, .i1⟩
  | .hbm, ⟨25, _⟩ => ⟨S_, .i1⟩
  | .hbm, ⟨26, _⟩ => ⟨S4096x1000, .i1⟩
  | .hbm, ⟨27, _⟩ => ⟨S4096x1000x16, .f32⟩
  | .hbm, ⟨28, _⟩ => ⟨S4096x1000x16, .i1⟩
  | .hbm, ⟨29, _⟩ => ⟨S_, .f32⟩
  | .hbm, ⟨30, _⟩ => ⟨S4096x1000x16, .f32⟩
  | .hbm, ⟨31, _⟩ => ⟨S4096x1000x16, .f32⟩
  | .hbm, ⟨32, _⟩ => ⟨S4096x1000x1, .f32⟩
  | .hbm, ⟨33, _⟩ => ⟨S4096x1000x16, .f32⟩
  | .hbm, ⟨34, _⟩ => ⟨S4096x1000x16, .f32⟩
  | .hbm, ⟨35, _⟩ => ⟨S_, .f32⟩
  | .hbm, ⟨36, _⟩ => ⟨S4096x16, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  bcast_S_S4096x1000 : S_.BroadcastsInDim S4096x1000 (![] : Fin 0 → Fin S4096x1000.rank)
  bcast_S4096x1000_S4096x1000x1_0_1 : S4096x1000.BroadcastsInDim S4096x1000x1 (![0, 1] : Fin 2 → Fin S4096x1000x1.rank)
  bcast_S_S4096x1000x1 : S_.BroadcastsInDim S4096x1000x1 (![] : Fin 0 → Fin S4096x1000x1.rank)
  bcast_S1_S1x1x1_2 : S1.BroadcastsInDim S1x1x1 (![2] : Fin 1 → Fin S1x1x1.rank)
  bcast_S1x1x1_S4096x1000x1_0_1_2 : S1x1x1.BroadcastsInDim S4096x1000x1 (![0, 1, 2] : Fin 3 → Fin S4096x1000x1.rank)
  reducesTo_S4096x1000x1_S4096x1000_d2 : S4096x1000x1.ReducesTo [2] S4096x1000
  h_S_ : 0 < S_.numel
  bcast_S4096x1000_S4096x1000x16_0_1 : S4096x1000.BroadcastsInDim S4096x1000x16 (![0, 1] : Fin 2 → Fin S4096x1000x16.rank)
  bcast_S_S4096x1000x16 : S_.BroadcastsInDim S4096x1000x16 (![] : Fin 0 → Fin S4096x1000x16.rank)
  bcast_S4096x1000x1_S4096x1000x16_0_1_2 : S4096x1000x1.BroadcastsInDim S4096x1000x16 (![0, 1, 2] : Fin 3 → Fin S4096x1000x16.rank)
  reducesTo_S4096x1000x16_S4096x16_d1 : S4096x1000x16.ReducesTo [1] S4096x16
  gather_S1000x16_S4096x1000x1_S4096x1000x16_2_0_n_n_0_2_116_wf : GatherDims.WF S1000x16 S4096x1000x1 S4096x1000x16 [2] [0] [] [0] [] 2 ![1, 16]

variable [Facts₀]

def gather_S1000x16_S4096x1000x1_S4096x1000x16_2_0_n_n_0_2_116 : GatherDims S1000x16 S4096x1000x1 S4096x1000x16 where
  offsetDims := [2]
  collapsedSliceDims := [0]
  operandBatchingDims := []
  startIndicesBatchingDims := []
  startIndexMap := [0]
  indexVectorDim := 2
  sliceSizes := ![1, 16]
  wf := gather_S1000x16_S4096x1000x1_S4096x1000x16_2_0_n_n_0_2_116_wf

class Facts : Prop extends Facts₀ where

variable [Facts]
-- ==== Proof.Spec.lean ====
/-
  The specification both programs meet: a weighted sum of table rows. For an input `x` of 4096 rows of 1000 weights
  and a table `t` of 1000 rows of 16 entries, entry (b, d) of the result is the sum over the columns k of
  `x[b, k] · t[k, d]` on the extended reals.
  The two programs differ in which table row a ZERO weight multiplies — the kernel always row k, the reference row 0 —
  and agree because a zero weight makes the product zero whatever the row holds, an infinity included
  (`0 · ⊤ = 0` on the extended reals): `pick_mul`. No finiteness is used.
-/
import Idealize.ShloMosaic.PureOps.Ideal
import Idealize.ShloMosaic.Lib.ValueIdx

noncomputable section

namespace Cert.WeightedRows

open Idealize.ShloMosaic Idealize.ShloMosaic.ValueIdx

abbrev SX : Shape := ⟨2, ![4096, 1000]⟩
abbrev ST : Shape := ⟨2, ![1000, 16]⟩
abbrev SO : Shape := ⟨2, ![4096, 16]⟩

/-- Entry (b, d) of the result: the sum over the columns of the weight times the table's entry. -/
def entry (x : SX.Idx → EReal) (t : ST.Idx → EReal) (b : Fin 4096) (d : Fin 16) : EReal :=
  ∑ k : Fin 1000, x (ix2 b k) * t (ix2 k d)

/-- The whole result array. -/
def G (x : SX.Idx → EReal) (t : ST.Idx → EReal) : SO.Idx → EReal :=
  fun i => entry x t (i 0) (i 1)

theorem G_apply (x : SX.Idx → EReal) (t : ST.Idx → EReal) (b : Fin 4096) (d : Fin 16) :
    G x t (ix2 b d) = entry x t b d := rfl

/-- A weight times the row it selects: where the weight is zero the row does not matter. -/
theorem pick_mul (a r0 rk : EReal) : (if a = 0 then r0 else rk) * a = a * rk := by
  by_cases h : a = 0
  · rw [if_pos h, h, mul_zero, zero_mul]
  · rw [if_neg h, mul_comm]

end Cert.WeightedRows

end
-- ==== Proof.KernelValue.lean ====
/-
  What the kernel's result array holds at the ideal values. One grid point t (of 8) stages rows 512·t … 512·t + 511 of the
  input and the whole table, and stores their matrix product into the matching 512 rows of the result. At the ideal values
  the product into a zero accumulator is, entry by entry, the plain sum over the 1000 columns of the input's entry times
  the table's; so the block point t writes back is the restriction of the specification `G` to those rows, and the eight
  blocks tile the 4096 rows: after the run the result array is `G` of the two argument arrays.
-/
import proofs.«136956_g11630771438334_week1_w4_1134_2_alg».proof.Proof.Gen.KernelIdeal.Value
import proofs.«136956_g11630771438334_week1_w4_1134_2_alg».proof.Proof.Spec
import Idealize.ShloMosaic.PureOps.Ideal.Laws
import Idealize.ShloMosaic.Lib.ValueIdx
import Idealize.ShloMosaic.Lib.Pipeline.Value

noncomputable section

namespace Cert.KernelIdeal.Product

open Cert.KernelIdeal Cert.KernelIdeal.Gen Idealize.ShloMosaic Idealize.ShloMosaic.TcCoe Idealize.SL.Sem
open Idealize.ShloMosaic.Pipeline (Dat)
open Idealize.ShloMosaic.ValueIdx
open Cert.WeightedRows (G entry)

/-! ## The body's product, entry by entry -/

/-- The product's left operand index on its row axis is the result's row. -/
theorem lhs_row (j : S512x16.Idx) (k : dot_S512x1000_S1000x16_S512x16_1_0_0_1_n_n.contr.Idx) :
    (dot_S512x1000_S1000x16_S512x16_1_0_0_1_n_n.lhsIdx j k (0 : Fin 2)).val = (j 0).val := by
  unfold DotDims.lhsIdx
  rw [dif_neg (show ¬ (0 : Fin S512x1000.rank) ∈ dot_S512x1000_S1000x16_S512x16_1_0_0_1_n_n.lhsBatch by decide),
    dif_pos (show (0 : Fin S512x1000.rank) ∈ dot_S512x1000_S1000x16_S512x16_1_0_0_1_n_n.lhsNonContracting by decide)]
  rfl

/-- On its column axis it is the summation index. -/
theorem lhs_col (j : S512x16.Idx) (k : dot_S512x1000_S1000x16_S512x16_1_0_0_1_n_n.contr.Idx) :
    (dot_S512x1000_S1000x16_S512x16_1_0_0_1_n_n.lhsIdx j k (1 : Fin 2)).val = (k ⟨0, by decide⟩).val :=
  dot_S512x1000_S1000x16_S512x16_1_0_0_1_n_n.lhsIdx_val_of_single (cl := (1 : Fin 2)) rfl j k

/-- The right operand's row is the summation index. -/
theorem rhs_row (j : S512x16.Idx) (k : dot_S512x1000_S1000x16_S512x16_1_0_0_1_n_n.contr.Idx) :
    (dot_S512x1000_S1000x16_S512x16_1_0_0_1_n_n.rhsIdx j k (0 : Fin 2)).val = (k ⟨0, by decide⟩).val :=
  dot_S512x1000_S1000x16_S512x16_1_0_0_1_n_n.rhsIdx_val_of_single (cr := (0 : Fin 2)) rfl j k

/-- The right operand's column is the result's column. -/
theorem rhs_col (j : S512x16.Idx) (k : dot_S512x1000_S1000x16_S512x16_1_0_0_1_n_n.contr.Idx) :
    (dot_S512x1000_S1000x16_S512x16_1_0_0_1_n_n.rhsIdx j k (1 : Fin 2)).val = (j 1).val := by
  unfold DotDims.rhsIdx
  rw [dif_neg (show ¬ (1 : Fin S1000x16.rank) ∈ dot_S512x1000_S1000x16_S512x16_1_0_0_1_n_n.rhsBatch by decide),
    dif_pos (show (1 : Fin S1000x16.rank) ∈ dot_S512x1000_S1000x16_S512x16_1_0_0_1_n_n.rhsNonContracting by decide)]
  rfl

/-- The body's stored value at (p, q): the sum over the 1000 columns of the staged input's entry (p, k) times the staged
    table's entry (k, q). -/
theorem product_apply (x0 : Vec Ideal S512x1000 .f32) (x1 : Vec Ideal S1000x16 .f32) (p : Fin 512) (q : Fin 16) :
    k0_pay1 (F := Ideal) x0 x1 (ix2 p q) = ∑ k : Fin 1000, x0 (ix2 p k) * x1 (ix2 k q) := by
  unfold k0_pay1
  refine (Ideal.matmul_constant_zero_apply dot_S512x1000_S1000x16_S512x16_1_0_0_1_n_n none x0 x1 (ix2 p q)).trans ?_
  rw [← Equiv.sum_comp (contrEquiv1 dot_S512x1000_S1000x16_S512x16_1_0_0_1_n_n 1000 rfl rfl).symm]
  refine Finset.sum_congr rfl fun k _ => ?_
  have hl : dot_S512x1000_S1000x16_S512x16_1_0_0_1_n_n.lhsIdx (ix2 p q)
      ((contrEquiv1 dot_S512x1000_S1000x16_S512x16_1_0_0_1_n_n 1000 rfl rfl).symm k) = ix2 p k := by
    funext a; apply Fin.ext
    match a with
    | ⟨0, _⟩ => exact lhs_row _ _
    | ⟨1, _⟩ => exact (lhs_col _ _).trans (contrEquiv1_symm_val dot_S512x1000_S1000x16_S512x16_1_0_0_1_n_n 1000 rfl rfl k)
  have hr : dot_S512x1000_S1000x16_S512x16_1_0_0_1_n_n.rhsIdx (ix2 p q)
      ((contrEquiv1 dot_S512x1000_S1000x16_S512x16_1_0_0_1_n_n 1000 rfl rfl).symm k) = ix2 k q := by
    funext a; apply Fin.ext
    match a with
    | ⟨0, _⟩ => exact (rhs_row _ _).trans (contrEquiv1_symm_val dot_S512x1000_S1000x16_S512x16_1_0_0_1_n_n 1000 rfl rfl k)
    | ⟨1, _⟩ => exact rhs_col _ _
  rw [hl, hr]

/-! ## The blocks and the arrays, at their literal types -/

variable (m : (ℓ : Loc nD τ sig) → Buf (Elt Ideal) ℓ) (ρ : Dev nD → PrngReg)

/-- The input array and the table as the region finds them. -/
abbrev xarr (c : Dev nD) : Vec Ideal S4096x1000 .f32 := V m c main_arg0
abbrev tarr (c : Dev nD) : Vec Ideal S1000x16 .f32 := V m c main_arg1
/-- The input's block and the table's block staged at point t. -/
abbrev xblk (c : Dev nD) (t : Fin cfg0.N) : Vec Ideal S512x1000 .f32 := iblk m c 0 t
abbrev tblk (c : Dev nD) (t : Fin cfg0.N) : Vec Ideal S1000x16 .f32 := iblk m c 1 t

theorem hz : (![0, 0] : Fin 2 → Nat) = fun _ => 0 := funext fun a => by fin_cases a <;> rfl

/-- The printed index maps over the 8 points: the input's block row is the result's, every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every one of the 8 row blocks is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- The staged input block at (p, k) is the input array at row (block row)·512 + p, column k. -/
theorem xblk_apply (c : Dev nD) (t : Fin cfg0.N) (p : Fin 512) (k : Fin 1000) (r : Fin 4096)
    (hr : r.val = win0_2.index t (0 : Fin 2) * 512 + p.val) :
    xblk m c t (ix2 p k) = xarr m c (ix2 r k) := by
  obtain ⟨e0, e1, e2, e3, e4, e5⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1000 + 1 * k.val = k.val; omega

/-- The staged table block is the whole table. -/
theorem tblk_apply (c : Dev nD) (t : Fin cfg0.N) (k : Fin 1000) (q : Fin 16) :
    tblk m c t (ix2 k q) = tarr m c (ix2 k q) := by
  obtain ⟨e0, e1, e2, e3, e4, e5⟩ := idx_facts t
  show V m c main_arg1 (((cfg0.win 1).blk t).view.emb (ix2 k q)) = V m c main_arg1 (ix2 k q)
  refine congrArg _ (funext fun a => Fin.ext ?_)
  match a with
  | ⟨0, _⟩ => show win0_1.index t (0 : Fin 2) * 1000 + 1 * k.val = k.val; omega
  | ⟨1, _⟩ => show win0_1.index t (1 : Fin 2) * 16 + 1 * q.val = q.val; omega

/-! ## What a point writes back, the cover, the array after the run -/

/-- What point t writes back is block t of `G` of the two arrays. -/
theorem flushed_eq (c : Dev nD) (t : Fin cfg0.N) :
    (dats m 0 c).flushed 2 t = ((cfg0.win 2).blk t).view.read (Elt Ideal) (G (xarr m c) (tarr m c)) := by
  rw [Cert.KernelIdeal.Value.flushed2]
  unfold out0_2
  rw [View.canon_unit_zero hz]
  simp only [View.ld_unit_zero (S := S512x1000) hz, View.ld_unit_zero (S := S1000x16) hz]
  funext j
  obtain ⟨p, q, rfl⟩ : ∃ (p : Fin 512) (q : Fin 16), j = ix2 p q := ⟨j 0, j 1, eq_ix2 j⟩
  show k0_pay1 (F := Ideal) (xblk m c t) (tblk m c t) (ix2 p q)
    = entry (xarr m c) (tarr m c) ((((cfg0.win 2).blk t).view.emb (ix2 p q)) 0) ((((cfg0.win 2).blk t).view.emb (ix2 p q)) 1)
  refine (product_apply _ _ p q).trans ?_
  unfold entry
  refine Finset.sum_congr rfl fun k _ => ?_
  obtain ⟨e0, e1, e2, e3, e4, e5⟩ := idx_facts t
  rw [xblk_apply m c t p k ((((cfg0.win 2).blk t).view.emb (ix2 p q)) 0)
      (show win0_2.index t (0 : Fin 2) * 512 + 1 * p.val = _ by omega), tblk_apply m c t k q]
  refine congrArg (xarr m c _ * tarr m c ·) ?_
  refine funext fun a => Fin.ext ?_
  match a with
  | ⟨0, _⟩ => rfl
  | ⟨1, _⟩ => show q.val = win0_2.index t (1 : Fin 2) * 16 + 1 * q.val; omega

/-- An index of the result array is in point t's block iff each coordinate is in the block's range. -/
theorem mem_blk (t : Fin cfg0.N) (i : S4096x16.Idx) :
    i ∈ ((cfg0.win 2).blk t).view.set ↔ ∀ a : Fin 2, win0_2.index t a * S512x16.size a ≤ (i a).val ∧ (i a).val < win0_2.index t a * S512x16.size a + S512x16.size a := by
  show i ∈ ((View.whole main_v0).slice (win0_2.rect t)).set ↔ _
  rw [View.set_slice_whole, Rect.mem_set_unit]
  exact Iff.rfl

/-- Every index of the result array is in some point's block: the one whose block row is (row) / 512. -/
theorem cover (i : S4096x16.Idx) : ∃ t : Fin cfg0.N, (cfg0.win 2).flush t = true ∧ i ∈ ((cfg0.win 2).blk t).view.set := by
  have hi0 : (i 0).val < 4096 := (i 0).isLt
  have hi1 : (i 1).val < 16 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 16 ≤ (i 1).val ∧ (i 1).val < win0_2.index t (1 : Fin 2) * 16 + 16; omega

/-- The result array after the run is `G` of the two arrays. -/
theorem final (c : Dev nD) : (dats m 0 c).arrAt 2 cfg0.N = G (xarr m c) (tarr m c) :=
  (dats m 0 c).arrAt_eq_of_cover 2 (G (xarr m c) (tarr m c)) (fun t _ => flushed_eq m c t) cover

/-- The kernel's run: the result array at `G` of the launched arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Product

end
-- ==== Proof.RefRun.lean ====
/-
  The reference program's run, read back. Its @main is a straight line of host operations once the two
  outlined functions are substituted at their calls: the absolute value, the sign and its conversion to a
  word (1 where the input is not zero, 0 where it is), the column numbers, their product (the row of the
  table each entry selects), the take (negative indices wrapped, the gather, the out-of-range fill), the
  product with the input and the sum over the columns. Every weakly fair execution terminates with the result
  buffer at that composed term of the two argument arrays, the arguments unchanged.
-/
import proofs.«136956_g11630771438334_week1_w4_1134_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's thirty-five operations in order, the take and its inner select written at their call sites over the
    call's own buffers. -/
abbrev ops : List (HloOp τ sig (Elt F)) :=
  [ unary main_arg0 main_v0 (Host.absf : (⟨S4096x1000, .f32⟩ : BufTy).Contents (Elt F) → (⟨S4096x1000, .f32⟩ : BufTy).Contents (Elt F)),
    unary main_v0 main_v1 (Host.sign : (⟨S4096x1000, .f32⟩ : BufTy).Contents (Elt F) → (⟨S4096x1000, .f32⟩ : BufTy).Contents (Elt F)),
    unary main_v1 main_v2 (fptosi 32 : (⟨S4096x1000, .f32⟩ : BufTy).Contents (Elt F) → (⟨S4096x1000, .i32⟩ : BufTy).Contents (Elt F)),
    nullary main_v3 (iotaInDim S1000 32 0),
    unary main_v3 main_v4 (broadcastInDim S1x1000 ![1] bcast_S1000_S1x1000_1 : (⟨S1000, .i32⟩ : BufTy).Contents (Elt F) → (⟨S1x1000, .i32⟩ : BufTy).Contents (Elt F)),
    unary main_v4 main_v5 (broadcastInDim S4096x1000 ![0, 1] bcast_S1x1000_S4096x1000_0_1 : (⟨S1x1000, .i32⟩ : BufTy).Contents (Elt F) → (⟨S4096x1000, .i32⟩ : BufTy).Contents (Elt F)),
    binary main_v2 main_v5 main_v6 (muli : (⟨S4096x1000, .i32⟩ : BufTy).Contents (Elt F) → (⟨S4096x1000, .i32⟩ : BufTy).Contents (Elt F) → (⟨S4096x1000, .i32⟩ : BufTy).Contents (Elt F)),
    TRef.nullary main_call0.c (constantI S_ 32 0#32),
    TRef.unary main_call0.c main_call0.v0 (broadcastInDim S4096x1000 ![] bcast_S_S4096x1000),
    TRef.binary (.of main_v6) main_call0.v0 main_call0.v1 (cmpi .slt),
    TRef.nullary main_call0.c_0 (constantI S_ 32 1000#32),
    TRef.unary main_call0.c_0 main_call0.v2 (broadcastInDim S4096x1000 ![] bcast_S_S4096x1000),
    TRef.binary (.of main_v6) main_call0.v2 main_call0.v3 addi,
    TRef.ternary main_call0.v1 main_call0.v3 (.of main_v6) main_call0.call0.v0 select,
    TRef.unary main_call0.call0.v0 main_call0.v5 (broadcastInDim S4096x1000x1 ![0, 1] bcast_S4096x1000_S4096x1000x1_0_1),
    TRef.nullary main_call0.c_1 (constantI S1 32 999#32),
    TRef.nullary main_call0.c_2 (constantI S_ 32 0#32),
    TRef.unary main_call0.c_2 main_call0.v6 (broadcastInDim S4096x1000x1 ![] bcast_S_S4096x1000x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x1000x1 ![0, 1, 2] bcast_S1x1x1_S4096x1000x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1000x1_S4096x1000_d2 h_S_),
    TRef.binary (.of main_arg1) main_call0.v5 main_call0.v13 (fun x i => Host.gather gather_S1000x16_S4096x1000x1_S4096x1000x16_2_0_n_n_0_2_116 x i),
    TRef.unary main_call0.v12 main_call0.v14 (broadcastInDim S4096x1000x16 ![0, 1] bcast_S4096x1000_S4096x1000x16_0_1),
    TRef.nullary main_call0.cst (constant S_ .f32 0x7FC00000#32),
    TRef.unary main_call0.cst main_call0.v15 (broadcastInDim S4096x1000x16 ![] bcast_S_S4096x1000x16),
    TRef.ternary main_call0.v14 main_call0.v13 main_call0.v15 main_call0.v16 select,
    unary main_arg0 main_v8 (broadcastInDim S4096x1000x1 ![0, 1] bcast_S4096x1000_S4096x1000x1_0_1 : (⟨S4096x1000, .f32⟩ : BufTy).Contents (Elt F) → (⟨S4096x1000x1, .f32⟩ : BufTy).Contents (Elt F)),
    unary main_v8 main_v9 (broadcastInDim S4096x1000x16 ![0, 1, 2] bcast_S4096x1000x1_S4096x1000x16_0_1_2 : (⟨S4096x1000x1, .f32⟩ : BufTy).Contents (Elt F) → (⟨S4096x1000x16, .f32⟩ : BufTy).Contents (Elt F)),
    binary main_v7 main_v9 main_v10 (mulf : (⟨S4096x1000x16, .f32⟩ : BufTy).Contents (Elt F) → (⟨S4096x1000x16, .f32⟩ : BufTy).Contents (Elt F) → (⟨S4096x1000x16, .f32⟩ : BufTy).Contents (Elt F)),
    nullary main_cst (constant S_ .f32 0x00000000#32),
    binary main_v10 main_cst main_v11 ((fun x v => Host.reduceAdd x v reducesTo_S4096x1000x16_S4096x16_d1 h_S_) : (⟨S4096x1000x16, .f32⟩ : BufTy).Contents (Elt F) → (⟨S_, .f32⟩ : BufTy).Contents (Elt F) → (⟨S4096x16, .f32⟩ : BufTy).Contents (Elt F)) ]

set_option maxRecDepth 1024 in
/-- @main is that straight line: the two functions' bodies substituted at their calls, sequencing reassociated. -/
theorem main_eq (c : Dev nD) : main (F := F) c = seq ops := by
  simp only [main, fn_take.body, fn_where.body, seq, bind_assoc, pure_bind]

/-! ## The result, stage by stage -/

/-- The row each entry selects, as a word: the column number where the input is not zero (its sign's magnitude is 1),
    zero where it is. -/
def hotIdx (x : FVec F S4096x1000 .f32) : IVec S4096x1000 32 :=
  muli (fptosi 32 (Host.sign (Host.absf x)))
    (broadcastInDim S4096x1000 ![0, 1] bcast_S1x1000_S4096x1000_0_1 (broadcastInDim S1x1000 ![1] bcast_S1000_S1x1000_1 (iotaInDim S1000 32 0)))

/-- The take's wrap of negative indices: 1000 added where the word is below zero. -/
def wrapIdx (w : IVec S4096x1000 32) : IVec S4096x1000 32 :=
  select (cmpi .slt w (broadcastInDim S4096x1000 ![] bcast_S_S4096x1000 (constantI S_ 32 0#32)))
    (addi w (broadcastInDim S4096x1000 ![] bcast_S_S4096x1000 (constantI S_ 32 1000#32))) w

/-- The gather's start indices: the wrapped words with a trailing unit axis. -/
def startIdx (w : IVec S4096x1000 32) : IVec S4096x1000x1 32 :=
  broadcastInDim S4096x1000x1 ![0, 1] bcast_S4096x1000_S4096x1000x1_0_1 (wrapIdx w)

/-- The take's test that a start index lies in 0 … 999, reduced over the unit axis. -/
def inBounds (s : IVec S4096x1000x1 32) : IVec S4096x1000 1 :=
  Host.reduce IntOp.andi
    (andi (cmpi .sge s (broadcastInDim S4096x1000x1 ![] bcast_S_S4096x1000x1 (constantI S_ 32 0#32)))
      (cmpi .sle s (broadcastInDim S4096x1000x1 ![0, 1, 2] bcast_S1x1x1_S4096x1000x1_0_1_2 (broadcastInDim S1x1x1 ![2] bcast_S1_S1x1x1_2 (constantI S1 32 999#32)))))
    (constantI S_ 1 1#1) reducesTo_S4096x1000x1_S4096x1000_d2 h_S_

/-- The take: the gathered rows where the index is in range, the fill constant elsewhere. -/
def taken (t : FVec F S1000x16 .f32) (s : IVec S4096x1000x1 32) : FVec F S4096x1000x16 .f32 :=
  select (broadcastInDim S4096x1000x16 ![0, 1] bcast_S4096x1000_S4096x1000x16_0_1 (inBounds s))
    (Host.gather gather_S1000x16_S4096x1000x1_S4096x1000x16_2_0_n_n_0_2_116 t s)
    (broadcastInDim S4096x1000x16 ![] bcast_S_S4096x1000x16 (constant S_ .f32 0x7FC00000#32))

/-- The reference's result: the selected rows weighted by the input and summed over the columns. -/
def out (x : FVec F S4096x1000 .f32) (t : FVec F S1000x16 .f32) : FVec F S4096x16 .f32 :=
  Host.reduceAdd
    (mulf (taken t (startIdx (hotIdx x)))
      (broadcastInDim S4096x1000x16 ![0, 1, 2] bcast_S4096x1000x1_S4096x1000x16_0_1_2 (broadcastInDim S4096x1000x1 ![0, 1] bcast_S4096x1000_S4096x1000x1_0_1 x)))
    (constant S_ .f32 0x00000000#32) reducesTo_S4096x1000x16_S4096x16_d1 h_S_

/-! ## The fold, stretch by stretch

The thirty-five operations cut into five consecutive stretches; each stretch's result buffer is read as a stage of the
buffers it starts from, and the buffers it does not write are kept. -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The index words: operations 1 to 7. -/
abbrev seg1 : List (HloOp τ sig (Elt F)) :=
  [ unary main_arg0 main_v0 (Host.absf : (⟨S4096x1000, .f32⟩ : BufTy).Contents (Elt F) → (⟨S4096x1000, .f32⟩ : BufTy).Contents (Elt F)),
    unary main_v0 main_v1 (Host.sign : (⟨S4096x1000, .f32⟩ : BufTy).Contents (Elt F) → (⟨S4096x1000, .f32⟩ : BufTy).Contents (Elt F)),
    unary main_v1 main_v2 (fptosi 32 : (⟨S4096x1000, .f32⟩ : BufTy).Contents (Elt F) → (⟨S4096x1000, .i32⟩ : BufTy).Contents (Elt F)),
    nullary main_v3 (iotaInDim S1000 32 0),
    unary main_v3 main_v4 (broadcastInDim S1x1000 ![1] bcast_S1000_S1x1000_1 : (⟨S1000, .i32⟩ : BufTy).Contents (Elt F) → (⟨S1x1000, .i32⟩ : BufTy).Contents (Elt F)),
    unary main_v4 main_v5 (broadcastInDim S4096x1000 ![0, 1] bcast_S1x1000_S4096x1000_0_1 : (⟨S1x1000, .i32⟩ : BufTy).Contents (Elt F) → (⟨S4096x1000, .i32⟩ : BufTy).Contents (Elt F)),
    binary main_v2 main_v5 main_v6 (muli : (⟨S4096x1000, .i32⟩ : BufTy).Contents (Elt F) → (⟨S4096x1000, .i32⟩ : BufTy).Contents (Elt F) → (⟨S4096x1000, .i32⟩ : BufTy).Contents (Elt F)) ]
/-- The wrap and the trailing unit axis: operations 8 to 15. -/
abbrev seg2 : List (HloOp τ sig (Elt F)) :=
  [ TRef.nullary main_call0.c (constantI S_ 32 0#32),
    TRef.unary main_call0.c main_call0.v0 (broadcastInDim S4096x1000 ![] bcast_S_S4096x1000),
    TRef.binary (.of main_v6) main_call0.v0 main_call0.v1 (cmpi .slt),
    TRef.nullary main_call0.c_0 (constantI S_ 32 1000#32),
    TRef.unary main_call0.c_0 main_call0.v2 (broadcastInDim S4096x1000 ![] bcast_S_S4096x1000),
    TRef.binary (.of main_v6) main_call0.v2 main_call0.v3 addi,
    TRef.ternary main_call0.v1 main_call0.v3 (.of main_v6) main_call0.call0.v0 select,
    TRef.unary main_call0.call0.v0 main_call0.v5 (broadcastInDim S4096x1000x1 ![0, 1] bcast_S4096x1000_S4096x1000x1_0_1) ]
/-- The range test: operations 16 to 25. -/
abbrev seg3 : List (HloOp τ sig (Elt F)) :=
  [ TRef.nullary main_call0.c_1 (constantI S1 32 999#32),
    TRef.nullary main_call0.c_2 (constantI S_ 32 0#32),
    TRef.unary main_call0.c_2 main_call0.v6 (broadcastInDim S4096x1000x1 ![] bcast_S_S4096x1000x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x1000x1 ![0, 1, 2] bcast_S1x1x1_S4096x1000x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1000x1_S4096x1000_d2 h_S_) ]
/-- The gather and the fill: operations 26 to 30. -/
abbrev seg4 : List (HloOp τ sig (Elt F)) :=
  [ TRef.binary (.of main_arg1) main_call0.v5 main_call0.v13 (fun x i => Host.gather gather_S1000x16_S4096x1000x1_S4096x1000x16_2_0_n_n_0_2_116 x i),
    TRef.unary main_call0.v12 main_call0.v14 (broadcastInDim S4096x1000x16 ![0, 1] bcast_S4096x1000_S4096x1000x16_0_1),
    TRef.nullary main_call0.cst (constant S_ .f32 0x7FC00000#32),
    TRef.unary main_call0.cst main_call0.v15 (broadcastInDim S4096x1000x16 ![] bcast_S_S4096x1000x16),
    TRef.ternary main_call0.v14 main_call0.v13 main_call0.v15 main_call0.v16 select ]
/-- The weights and the sum: operations 31 to 35. -/
abbrev seg5 : List (HloOp τ sig (Elt F)) :=
  [ unary main_arg0 main_v8 (broadcastInDim S4096x1000x1 ![0, 1] bcast_S4096x1000_S4096x1000x1_0_1 : (⟨S4096x1000, .f32⟩ : BufTy).Contents (Elt F) → (⟨S4096x1000x1, .f32⟩ : BufTy).Contents (Elt F)),
    unary main_v8 main_v9 (broadcastInDim S4096x1000x16 ![0, 1, 2] bcast_S4096x1000x1_S4096x1000x16_0_1_2 : (⟨S4096x1000x1, .f32⟩ : BufTy).Contents (Elt F) → (⟨S4096x1000x16, .f32⟩ : BufTy).Contents (Elt F)),
    binary main_v7 main_v9 main_v10 (mulf : (⟨S4096x1000x16, .f32⟩ : BufTy).Contents (Elt F) → (⟨S4096x1000x16, .f32⟩ : BufTy).Contents (Elt F) → (⟨S4096x1000x16, .f32⟩ : BufTy).Contents (Elt F)),
    nullary main_cst (constant S_ .f32 0x00000000#32),
    binary main_v10 main_cst main_v11 ((fun x v => Host.reduceAdd x v reducesTo_S4096x1000x16_S4096x16_d1 h_S_) : (⟨S4096x1000x16, .f32⟩ : BufTy).Contents (Elt F) → (⟨S_, .f32⟩ : BufTy).Contents (Elt F) → (⟨S4096x16, .f32⟩ : BufTy).Contents (Elt F)) ]

theorem ops_split : (ops : List (HloOp τ sig (Elt F))) = seg1 ++ (seg2 ++ (seg3 ++ (seg4 ++ seg5))) := rfl

/-- The take with its range test as a separate argument. -/
def takenOf (t : FVec F S1000x16 .f32) (s : IVec S4096x1000x1 32) (ok : IVec S4096x1000 1) : FVec F S4096x1000x16 .f32 :=
  select (broadcastInDim S4096x1000x16 ![0, 1] bcast_S4096x1000_S4096x1000x16_0_1 ok)
    (Host.gather gather_S1000x16_S4096x1000x1_S4096x1000x16_2_0_n_n_0_2_116 t s)
    (broadcastInDim S4096x1000x16 ![] bcast_S_S4096x1000x16 (constant S_ .f32 0x7FC00000#32))

theorem taken_eq (t : FVec F S1000x16 .f32) (s : IVec S4096x1000x1 32) : taken t s = takenOf t s (inBounds s) := rfl

/-- The weighted sum of rows already taken. -/
def weighted (r : FVec F S4096x1000x16 .f32) (x : FVec F S4096x1000 .f32) : FVec F S4096x16 .f32 :=
  Host.reduceAdd
    (mulf r (broadcastInDim S4096x1000x16 ![0, 1, 2] bcast_S4096x1000x1_S4096x1000x16_0_1_2 (broadcastInDim S4096x1000x1 ![0, 1] bcast_S4096x1000_S4096x1000x1_0_1 x)))
    (constant S_ .f32 0x00000000#32) reducesTo_S4096x1000x16_S4096x16_d1 h_S_

theorem out_eq_weighted (x : FVec F S4096x1000 .f32) (t : FVec F S1000x16 .f32) :
    out x t = weighted (takenOf t (startIdx (hotIdx x)) (inBounds (startIdx (hotIdx x)))) x := rfl

section Stretches
variable (W : Valuation τ sig (Elt F))

attribute [local irreducible] Host.reduce Host.gather Host.reduceAdd

theorem seg1_v6 : after seg1 W (main_v6 : DevRef τ sig) = hotIdx (W (main_arg0 : DevRef τ sig)) := by
  after_results_simp
  rfl
theorem seg1_arg0 : after seg1 W (main_arg0 : DevRef τ sig) = W (main_arg0 : DevRef τ sig) := by after_results_simp
theorem seg1_arg1 : after seg1 W (main_arg1 : DevRef τ sig) = W (main_arg1 : DevRef τ sig) := by after_results_simp

theorem seg2_v5 : after seg2 W (main_call0_v5 : DevRef τ sig) = startIdx (W (main_v6 : DevRef τ sig)) := by
  after_results_simp
  rfl
theorem seg2_arg0 : after seg2 W (main_arg0 : DevRef τ sig) = W (main_arg0 : DevRef τ sig) := by after_results_simp
theorem seg2_arg1 : after seg2 W (main_arg1 : DevRef τ sig) = W (main_arg1 : DevRef τ sig) := by after_results_simp

theorem seg3_v12 : after seg3 W (main_call0_v12 : DevRef τ sig) = inBounds (W (main_call0_v5 : DevRef τ sig)) := by
  after_results_simp
  rfl
theorem seg3_v5 : after seg3 W (main_call0_v5 : DevRef τ sig) = W (main_call0_v5 : DevRef τ sig) := by after_results_simp
theorem seg3_arg0 : after seg3 W (main_arg0 : DevRef τ sig) = W (main_arg0 : DevRef τ sig) := by after_results_simp
theorem seg3_arg1 : after seg3 W (main_arg1 : DevRef τ sig) = W (main_arg1 : DevRef τ sig) := by after_results_simp

theorem seg4_v7 : after seg4 W (main_v7 : DevRef τ sig)
    = takenOf (W (main_arg1 : DevRef τ sig)) (W (main_call0_v5 : DevRef τ sig)) (W (main_call0_v12 : DevRef τ sig)) := by
  after_results_simp
  rfl
theorem seg4_arg0 : after seg4 W (main_arg0 : DevRef τ sig) = W (main_arg0 : DevRef τ sig) := by after_results_simp
theorem seg4_arg1 : after seg4 W (main_arg1 : DevRef τ sig) = W (main_arg1 : DevRef τ sig) := by after_results_simp

theorem seg5_v11 : after seg5 W (main_v11 : DevRef τ sig) = weighted (W (main_v7 : DevRef τ sig)) (W (main_arg0 : DevRef τ sig)) := by
  after_results_simp
  rfl
theorem seg5_arg0 : after seg5 W (main_arg0 : DevRef τ sig) = W (main_arg0 : DevRef τ sig) := by after_results_simp
theorem seg5_arg1 : after seg5 W (main_arg1 : DevRef τ sig) = W (main_arg1 : DevRef τ sig) := by after_results_simp

end Stretches

/-- The fold of all the operations at the result buffer is `out` of the argument contents. -/
theorem out_eq (V : Valuation τ sig (Elt F)) :
    after ops V (main_v11 : DevRef τ sig) = out (V (main_arg0 : DevRef τ sig)) (V (main_arg1 : DevRef τ sig)) := by
  rw [ops_split, after_append, after_append, after_append, after_append, seg5_v11, seg4_v7, seg4_arg0, seg3_v12, seg3_v5, seg3_arg0, seg3_arg1,
    seg2_v5, seg2_arg0, seg2_arg1, seg1_v6, seg1_arg0, seg1_arg1, out_eq_weighted]

theorem arg0_eq (V : Valuation τ sig (Elt F)) : after ops V (main_arg0 : DevRef τ sig) = V (main_arg0 : DevRef τ sig) := by
  rw [ops_split, after_append, after_append, after_append, after_append, seg5_arg0, seg4_arg0, seg3_arg0, seg2_arg0, seg1_arg0]

theorem arg1_eq (V : Valuation τ sig (Elt F)) : after ops V (main_arg1 : DevRef τ sig) = V (main_arg1 : DevRef τ sig) := by
  rw [ops_split, after_append, after_append, after_append, after_append, seg5_arg1, seg4_arg1, seg3_arg1, seg2_arg1, seg1_arg1]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub .., nullary_bufs_sub ..,
    unary_bufs_sub .., ternary_bufs_sub .., unary_bufs_sub .., unary_bufs_sub .., binary_bufs_sub .., nullary_bufs_sub .., binary_bufs_sub ..⟩

/-- From any memory with zero counters every weakly fair execution of the reference's @main terminates with the result
    buffer at `out` of the two argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.HandRun

end
-- ==== Proof.LibGatherRows.lean ====
/-
  A row gather read at an index. `table[idx]` for a table of N rows of D entries and an R × C array of row numbers
  lowers to a gather with the row axis collapsed, the entry axis an offset axis and the start indices carried with a
  trailing unit axis. Result element (r, c, e) is the table's entry e of the row whose number is the start index at
  (r, c), read as a signed integer and clamped into 0 … N − 1.
-/
import Idealize.ShloMosaic.Lib.ValueIdx

namespace Cert.LibGatherRows

open Idealize.ShloMosaic Idealize.ShloMosaic.ValueIdx

variable {α : Type}

/-- The dimension numbers of a row gather: operand [N, D], start indices [R, C, 1], result [R, C, D]. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather at (r, c, e): entry e of the row numbered by the start index at (r, c), read signed and clamped
    into 0 … N − 1. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowDims N D R C wf) x idx (ix3 r c e)
      = x (ix2 ⟨min (idx (ix3 r c (0 : Fin 1))).toInt.toNat (N - 1), by omega⟩ e) := by
  unfold Host.gather
  congr 1
  funext a
  refine Fin.ext ?_
  match a with
  | ⟨0, _⟩ =>
    show (rowDims N D R C wf).start (ix3 r c e) idx 0 + (rowDims N D R C wf).batchCoord (ix3 r c e) 0
      + (rowDims N D R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c e) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r c e) idx 1 + (rowDims N D R C wf).batchCoord (ix3 r c e) 1
      + (rowDims N D R C wf).offCoord (ix3 r c e) 1 = _
    rw [GatherDims.batchCoord_eq_zero _ _ _ List.not_mem_nil]
    unfold GatherDims.start
    rw [dif_neg (show (1 : Fin 2) ∉ (rowDims N D R C wf).startIndexMap from fun h => absurd (congrArg Fin.val (List.mem_singleton.mp h)) Nat.one_ne_zero)]
    simp only [Nat.add_zero, Nat.zero_add]
    rfl

end Cert.LibGatherRows
-- ==== Proof.RefValue.lean ====
/-
  The reference's result at the ideal values is the specification. Entry by entry:
  the index word at (b, k) is the column number k where the input's entry is not zero and 0 where it is (the sign of a
  magnitude is 1 exactly off zero, and converts to the word 1); such a word is never negative, so the take's wrap leaves
  it, and never above 999, so the take's range test passes everywhere and the fill is never chosen; the gather then reads
  the table's row of that number; the host's sum over the columns is the plain sum from zero. Each term is the selected row's
  entry times the weight, which is the weight times row k's entry: at a zero weight both are zero.
-/
import proofs.«136956_g11630771438334_week1_w4_1134_2_alg».proof.Proof.RefRun
import proofs.«136956_g11630771438334_week1_w4_1134_2_alg».proof.Proof.Spec
import proofs.«136956_g11630771438334_week1_w4_1134_2_alg».proof.Proof.LibGatherRows
import Idealize.ShloMosaic.PureOps.Ideal.Laws
import Idealize.ShloMosaic.PureOps.Reduce
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.HandRun Idealize.ShloMosaic Idealize.ShloMosaic.ValueIdx
open Cert.WeightedRows (G entry pick_mul G_apply)

/-! ## Words -/

theorem fptosi_zero : Ideal.fptosi 32 (0 : EReal) = 0#32 := by
  rw [← EReal.coe_zero, Ideal.fptosi, Ideal.toIntClamped_coe]; norm_num

theorem fptosi_one : Ideal.fptosi 32 (1 : EReal) = 1#32 := by
  rw [← EReal.coe_one, Ideal.fptosi, Ideal.toIntClamped_coe]; norm_num

/-- The sign of the magnitude, converted to a word: 0 at zero, 1 elsewhere (the infinities included). -/
theorem signWord (a : EReal) : Ideal.fptosi 32 (Ideal.sign (max a (-a))) = if a = 0 then 0#32 else 1#32 := by
  by_cases h : a = 0
  · subst h; rw [if_pos rfl, neg_zero, max_self, Ideal.sign_zero, fptosi_zero]
  · rw [if_neg h, Ideal.sign_of_pos ((Ideal.zero_lt_max_neg_iff a).mpr h), fptosi_one]

/-- A fold of `and` from 1 over ones is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l (fun n hn => h n (List.mem_cons_of_mem _ hn))

/-! ## The broadcasts, read at an index -/

section Broadcasts
variable {α : Type}

/-- A trailing unit axis added: entry (b, k, u) is entry (b, k). -/
theorem bcast_unit (v : S4096x1000.Idx → α) (b : Fin 4096) (k : Fin 1000) (u : Fin 1) :
    broadcastInDim S4096x1000x1 ![0, 1] bcast_S4096x1000_S4096x1000x1_0_1 v (ix3 b k u) = v (ix2 b k) :=
  broadcastInDim_apply _ _ v _ (ix2 b k) (fun a => by match a with | ⟨0, _⟩ => rfl | ⟨1, _⟩ => rfl)

/-- The unit axis stretched to 16: entry (b, k, e) is entry (b, k, 0). -/
theorem bcast_last (v : S4096x1000x1.Idx → α) (b : Fin 4096) (k : Fin 1000) (e : Fin 16) :
    broadcastInDim S4096x1000x16 ![0, 1, 2] bcast_S4096x1000x1_S4096x1000x16_0_1_2 v (ix3 b k e) = v (ix3 b k (0 : Fin 1)) :=
  broadcastInDim_apply _ _ v _ (ix3 b k (0 : Fin 1)) (fun a => by match a with | ⟨0, _⟩ => rfl | ⟨1, _⟩ => rfl | ⟨2, _⟩ => rfl)

/-- A new trailing axis of 16: entry (b, k, e) is entry (b, k). -/
theorem bcast_rows (v : S4096x1000.Idx → α) (b : Fin 4096) (k : Fin 1000) (e : Fin 16) :
    broadcastInDim S4096x1000x16 ![0, 1] bcast_S4096x1000_S4096x1000x16_0_1 v (ix3 b k e) = v (ix2 b k) :=
  broadcastInDim_apply _ _ v _ (ix2 b k) (fun a => by match a with | ⟨0, _⟩ => rfl | ⟨1, _⟩ => rfl)

/-- The column numbers spread over the rows: entry (b, k) is the word k. -/
theorem colWord (b : Fin 4096) (k : Fin 1000) :
    broadcastInDim S4096x1000 ![0, 1] bcast_S1x1000_S4096x1000_0_1
      (broadcastInDim S1x1000 ![1] bcast_S1000_S1x1000_1 (iotaInDim S1000 32 0)) (ix2 b k) = BitVec.ofNat 32 k.val := by
  rw [broadcastInDim_apply _ _ _ (ix2 b k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]
  rfl

end Broadcasts

/-! ## The stages at an index -/

variable (x : FVec Ideal S4096x1000 .f32) (t : FVec Ideal S1000x16 .f32)

/-- The index word: the column where the weight is not zero, 0 where it is. -/
theorem hotIdx_apply (b : Fin 4096) (k : Fin 1000) :
    hotIdx (F := Ideal) x (ix2 b k) = if x (ix2 b k) = 0 then 0#32 else BitVec.ofNat 32 k.val := by
  show IntOp.muli (Ideal.fptosi 32 (Ideal.sign (max (x (ix2 b k)) (-(x (ix2 b k))))))
    (broadcastInDim S4096x1000 ![0, 1] bcast_S1x1000_S4096x1000_0_1
      (broadcastInDim S1x1000 ![1] bcast_S1000_S1x1000_1 (iotaInDim S1000 32 0)) (ix2 b k)) = _
  rw [signWord, colWord]
  by_cases h : x (ix2 b k) = 0
  · rw [if_pos h, if_pos h]; show (0#32 : BitVec 32) * BitVec.ofNat 32 k.val = 0#32; simp
  · rw [if_neg h, if_neg h]; show (1#32 : BitVec 32) * BitVec.ofNat 32 k.val = BitVec.ofNat 32 k.val; simp

/-- It is at most 999. -/
theorem hotIdx_le (b : Fin 4096) (k : Fin 1000) : (hotIdx (F := Ideal) x (ix2 b k)).toNat ≤ 999 := by
  rw [hotIdx_apply]
  by_cases h : x (ix2 b k) = 0
  · rw [if_pos h]; decide
  · rw [if_neg h]; simp [BitVec.toNat_ofNat]; omega

/-- The wrap leaves a word that is not negative. -/
theorem wrapIdx_apply (w : IVec S4096x1000 32) (i : S4096x1000.Idx) (hw : (w i).toNat < 2 ^ 31) : wrapIdx w i = w i := by
  show Scalar.select (IntOp.cmpi .slt (w i) 0#32) (IntOp.addi (w i) 1000#32) (w i) = w i
  have h : IntOp.cmpi .slt (w i) 0#32 = 0#1 :=
    eq_zero_of_ne_one (fun h1 => by have := (StableHlo.Predicate.slt_iff_toNat hw (by decide)).mp h1; simp at this)
  rw [h, select_zero]

/-- The start indices are the index words. -/
theorem start_apply (b : Fin 4096) (k : Fin 1000) (u : Fin 1) :
    startIdx (hotIdx (F := Ideal) x) (ix3 b k u) = hotIdx (F := Ideal) x (ix2 b k) := by
  unfold startIdx
  rw [bcast_unit, wrapIdx_apply _ _ (by have := hotIdx_le x b k; omega)]

theorem start_le (i : S4096x1000x1.Idx) : (startIdx (hotIdx (F := Ideal) x) i).toNat ≤ 999 := by
  obtain ⟨b, k, u, rfl⟩ : ∃ (b : Fin 4096) (k : Fin 1000) (u : Fin 1), i = ix3 b k u := ⟨i 0, i 1, i 2, eq_ix3 i⟩
  rw [start_apply]; exact hotIdx_le x b k

/-- The range test passes wherever every start index is at most 999. -/
theorem inBounds_one (s : IVec S4096x1000x1 32) (hs : ∀ i, (s i).toNat ≤ 999) (j : S4096x1000.Idx) : inBounds s j = 1#1 := by
  unfold inBounds
  rw [Host.reduce_eq_foldl]
  refine foldl_andi_ones _ _ (fun i _ => ?_)
  show IntOp.andi (IntOp.cmpi .sge (s i) 0#32) (IntOp.cmpi .sle (s i) 999#32) = 1#1
  rw [(StableHlo.Predicate.sge_iff_toNat (by have := hs i; omega) (by decide)).mpr (by simp),
    (StableHlo.Predicate.sle_iff_toNat (by have := hs i; omega) (by decide)).mpr (by show (s i).toNat ≤ 999; exact hs i)]
  decide

/-- The take where the range test passes: the table's row numbered by the start index (clamped), entry e. -/
theorem takenOf_apply (s : IVec S4096x1000x1 32) (ok : IVec S4096x1000 1) (b : Fin 4096) (k : Fin 1000) (e : Fin 16) (n : Fin 1000)
    (hn : n.val = min (s (ix3 b k (0 : Fin 1))).toInt.toNat 999) (hok : ok (ix2 b k) = 1#1) :
    takenOf (F := Ideal) t s ok (ix3 b k e) = t (ix2 n e) := by
  show Scalar.select (broadcastInDim S4096x1000x16 ![0, 1] bcast_S4096x1000_S4096x1000x16_0_1 ok (ix3 b k e))
    (Host.gather gather_S1000x16_S4096x1000x1_S4096x1000x16_2_0_n_n_0_2_116 t s (ix3 b k e))
    (broadcastInDim S4096x1000x16 ![] bcast_S_S4096x1000x16 (constant S_ .f32 0x7FC00000#32) (ix3 b k e)) = _
  rw [bcast_rows, hok, select_one]
  refine (Cert.LibGatherRows.gather_rows_apply (N := 1000) (D := 16) (R := 4096) (C := 1000) (by decide)
    gather_S1000x16_S4096x1000x1_S4096x1000x16_2_0_n_n_0_2_116_wf t s b k e).trans ?_
  exact congrArg t (funext fun a => Fin.ext (by match a with | ⟨0, _⟩ => exact hn.symm | ⟨1, _⟩ => rfl))

/-- The host's sum over the columns, entry by entry. -/
theorem weighted_apply (r : FVec Ideal S4096x1000x16 .f32) (b : Fin 4096) (e : Fin 16) :
    weighted (F := Ideal) r x (ix2 b e) = ∑ k : Fin 1000, r (ix3 b k e) * x (ix2 b k) := by
  have hR : S4096x1000x16.Reduces [1] S4096x16 := by decide
  have hl : ∀ k : Fin 1000, hR.lift (ix2 b e) k = ix3 b k e := fun k =>
    funext fun c => Fin.ext (by match c with | ⟨0, _⟩ => rfl | ⟨1, _⟩ => rfl | ⟨2, _⟩ => rfl)
  unfold weighted Host.reduceAdd
  rw [Ideal.hostReduceAdd_def]
  refine (Ideal.hostReduceAdd_single reducesTo_S4096x1000x16_S4096x16_d1 hR _ _ (ix2 b e)).trans ?_
  show Ideal.ofBits .f32 0x00000000#32 + ∑ k : Fin 1000, _ = _
  rw [Ideal.ofBits_zero_f32, zero_add]
  refine Finset.sum_congr rfl fun k _ => ?_
  rw [hl k]
  show r (ix3 b k e) * broadcastInDim S4096x1000x16 ![0, 1, 2] bcast_S4096x1000x1_S4096x1000x16_0_1_2
    (broadcastInDim S4096x1000x1 ![0, 1] bcast_S4096x1000_S4096x1000x1_0_1 x) (ix3 b k e) = _
  rw [bcast_last, bcast_unit]

/-! ## The whole result -/

/-- The reference's result is the specification of its two arguments. -/
theorem out_eq_G : out (F := Ideal) x t = G x t := by
  funext i
  obtain ⟨b, e, rfl⟩ : ∃ (b : Fin 4096) (e : Fin 16), i = ix2 b e := ⟨i 0, i 1, eq_ix2 i⟩
  rw [out_eq_weighted, weighted_apply, G_apply]
  unfold entry
  refine Finset.sum_congr rfl fun k _ => ?_
  have hok : inBounds (startIdx (hotIdx (F := Ideal) x)) (ix2 b k) = 1#1 := inBounds_one _ (start_le x) _
  have key : takenOf (F := Ideal) t (startIdx (hotIdx (F := Ideal) x)) (inBounds (startIdx (hotIdx (F := Ideal) x))) (ix3 b k e)
      = if x (ix2 b k) = 0 then t (ix2 (0 : Fin 1000) e) else t (ix2 k e) := by
    by_cases h : x (ix2 b k) = 0
    · rw [if_pos h]
      exact takenOf_apply t _ _ b k e (0 : Fin 1000) (by rw [start_apply, hotIdx_apply, if_pos h]; decide) hok
    · rw [if_neg h]
      exact takenOf_apply t _ _ b k e k (by
        rw [start_apply, hotIdx_apply, if_neg h, StableHlo.Predicate.toInt_ofNat_small _ (by omega)]
        simp; omega) hok
  rw [key, pick_mul]

end Cert.ReferenceIdeal.RefValue

end
-- ==== Proof.lean ====
/-
  The certificate's proof: a weighted embedding lookup against a dense matrix product.
  The reference gathers, for every entry of the input, row k of the table where the entry is not zero and row 0 where it
  is, multiplies the row by the entry and sums over the columns; the kernel multiplies the input by the table, 512 rows at a
  time. On the extended reals both are, entry (b, d), the sum over k of `x[b, k] · t[k, d]`: a zero entry makes its term zero
  whichever row it multiplies. The kernel's array is read off its blocks (Proof/KernelValue.lean), the reference's off its
  run (Proof/RefRun.lean, Proof/RefValue.lean); the frames of the two kernels are the generated ones, the reference's is its
  run with the result forgotten; the ideal pass rewrote nothing, so the idealization claim is trivial.
-/
import proofs.«136956_g11630771438334_week1_w4_1134_2_alg».proof.Defs
import proofs.«136956_g11630771438334_week1_w4_1134_2_alg».proof.Proof.Gen.Kernel
import proofs.«136956_g11630771438334_week1_w4_1134_2_alg».proof.Proof.Gen.Kernel.Skeleton
import proofs.«136956_g11630771438334_week1_w4_1134_2_alg».proof.Proof.Gen.Kernel.Launch
import proofs.«136956_g11630771438334_week1_w4_1134_2_alg».proof.Proof.Gen.Kernel.Points
import proofs.«136956_g11630771438334_week1_w4_1134_2_alg».proof.Proof.Gen.Kernel.Frame
import proofs.«136956_g11630771438334_week1_w4_1134_2_alg».proof.Proof.Gen.KernelIdeal
import proofs.«136956_g11630771438334_week1_w4_1134_2_alg».proof.Proof.Gen.KernelIdeal.Skeleton
import proofs.«136956_g11630771438334_week1_w4_1134_2_alg».proof.Proof.Gen.KernelIdeal.Launch
import proofs.«136956_g11630771438334_week1_w4_1134_2_alg».proof.Proof.Gen.KernelIdeal.Points
import proofs.«136956_g11630771438334_week1_w4_1134_2_alg».proof.Proof.Gen.KernelIdeal.Frame
import proofs.«136956_g11630771438334_week1_w4_1134_2_alg».proof.Proof.Gen.ReferenceIdeal
import proofs.«136956_g11630771438334_week1_w4_1134_2_alg».proof.Proof.Gen.Pre_finite_inputs
import proofs.«136956_g11630771438334_week1_w4_1134_2_alg».proof.Proof.KernelValue
import proofs.«136956_g11630771438334_week1_w4_1134_2_alg».proof.Proof.RefRun
import proofs.«136956_g11630771438334_week1_w4_1134_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end with the result array at the weighted sum of rows of their arguments, which agree. -/
theorem algebraic : Cert.algebraic_KernelIdeal_ReferenceIdeal := by
  intro m ρ m' ρ' _ hagree
  refine ⟨_, Cert.KernelIdeal.Product.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.out_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
